-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S10000x128 : Shape := ⟨2, ![10000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S10000x1 : Shape := ⟨2, ![10000, 1]⟩

abbrev nBuf : Space → Nat
  | .hbm => 58
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S128x128, .f32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  shapeCasts_S10000x128_S10000x128 : S10000x128.ShapeCasts S10000x128
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1600000x128.size a
  hwx1_0 : ∀ i : grid1.Coords, EltTy.bits .f32 = 32 ∨ (Rect.block (s := S1600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1600000x128.size a
  hwx1_2 : ∀ i : grid1.Coords, EltTy.bits .f32 = 32 ∨ (Rect.block (s := S1600000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S128x128, .f32⟩
  | .hbm, ⟨4, _⟩ => ⟨S100000x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Glue.lean ====
/-
  The host side of the computation, named piece by piece, for any float family.

  The edge list is a 2 × E array of node numbers, E = 1600000: row 0 the target of each edge, row 1 its source. A
  node number v is used as an index after wrapping, v + N when v < 0 (N = 100000 nodes). The degree of a node is the
  number of edges whose source it is: ones scattered and added at the sources. Its inverse square root is taken
  where the degree is positive and is 0 elsewhere. An edge's norm is the product of the inverse square roots at its
  two ends (with a factor 1 between them). The features h (N × 128) are gathered at each edge's source, each
  gathered row is weighted, and the weighted rows are scattered and added at the targets.
-/
import proofs.«101713_j80247168959057_1_alg».proof.Proof.Gen.KernelIdeal

noncomputable section

namespace Cert.KernelIdeal.Glue

open Cert.KernelIdeal Cert.KernelIdeal.Gen Idealize.ShloMosaic

variable {F : FTy → Type} [FloatOps F]

/-- Row 0 of the edge list: each edge's target node. -/
def target (ei : IVec S2x1600000 32) : IVec S1600000 32 :=
  shapeCast S1600000 (extractStridedSlice S1x1600000 ![0, 0] ei slices_S2x1600000_S1x1600000_0_0) shapeCasts_S1x1600000_S1600000

/-- Row 1 of the edge list: each edge's source node. -/
def source (ei : IVec S2x1600000 32) : IVec S1600000 32 :=
  shapeCast S1600000 (extractStridedSlice S1x1600000 ![1, 0] ei slices_S2x1600000_S1x1600000_1_0) shapeCasts_S1x1600000_S1600000

/-- A vector of E node numbers as an E × 1 array of start indices. -/
def asColumn (v : IVec S1600000 32) : IVec S1600000x1 32 :=
  broadcastInDim S1600000x1 ![0] bcast_S1600000_S1600000x1_0 v

/-- Node numbers wrapped for indexing: v + 100000 where v is negative, v elsewhere. -/
def wrapped (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- One per edge. -/
def ones : FVec F S1600000 .f32 :=
  broadcastInDim S1600000 ![] bcast_S_S1600000 (constant S_ .f32 0x3F800000#32)

/-- The number of edges leaving each node: ones added up at the sources. -/
def degree (src : IVec S1600000 32) : FVec F S100000 .f32 :=
  Host.scatterAdd scatter_S100000_S1600000x1_S1600000_n_0_0_1
    (broadcastInDim S100000 ![] bcast_S_S100000 (constant S_ .f32 0x00000000#32)) (asColumn src) ones

/-- The inverse square root of the degree where it is positive, 0 elsewhere. -/
def invSqrtDegree (src : IVec S1600000 32) : FVec F S100000 .f32 :=
  select (cmpf (F := F) .ogt (degree src) (broadcastInDim S100000 ![] bcast_S_S100000 (constant S_ .f32 0x00000000#32)))
    (Host.rsqrt (degree src))
    (broadcastInDim S100000 ![] bcast_S_S100000 (id (constant S_ .f32 0x00000000#32)))

/-- An edge's norm: the inverse square roots of the degrees at its target and at its source, multiplied. -/
def norm (tgt src : IVec S1600000 32) : FVec F S1600000 .f32 :=
  mulf (mulf (Host.gather gather_S100000_S1600000x1_S1600000_n_0_n_n_0_1_1 (invSqrtDegree src) (asColumn (wrapped tgt))) ones)
    (Host.gather gather_S100000_S1600000x1_S1600000_n_0_n_n_0_1_1 (invSqrtDegree src) (asColumn (wrapped src)))

/-- The feature rows at each edge's source. -/
def gathered (h : FVec F S100000x128 .f32) (src : IVec S1600000 32) : FVec F S1600000x128 .f32 :=
  Host.gather gather_S100000x128_S1600000x1_S1600000x128_1_0_n_n_0_1_1128 h (asColumn (wrapped src))

/-- Per-edge rows added up at each edge's target. -/
def aggregate (weighted : FVec F S1600000x128 .f32) (tgt : IVec S1600000 32) : FVec F S100000x128 .f32 :=
  Host.scatterAdd scatter_S100000x128_S1600000x1_S1600000x128_1_0_0_1
    (broadcastInDim S100000x128 ![] bcast_S_S100000x128 (constant S_ .f32 0x00000000#32)) (asColumn tgt) weighted

end Cert.KernelIdeal.Glue

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Projection.lean ====
/-
  The dense projection h = x · Wᵗ of the first pallas_call, as ONE function of the arrays the call finds.

  The call walks the 100000 rows of x in 10 blocks of 10000 rows; at block t its body loads the block of x and the
  whole 128 × 128 right operand, narrows both to bf16 (the identity on the extended reals), multiplies them into a
  zero accumulator and stores the 10000 × 128 product. So entry (r, q) of the result array, r in block r / 10000,
  is the sum over k < 128 of x(r, k) · w(k, q): the rows of x times the columns of the right operand, whatever the
  blocking. The blocks tile the array, so the array after the call IS that function.
-/
import proofs.«101713_j80247168959057_1_alg».proof.Proof.Gen.KernelIdeal.Frame
import proofs.«101713_j80247168959057_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Rows of `x` times columns of `w`: entry (r, q) is the sum over k of x(r, k) · w(k, q). -/
def rowsByCols (x : FVec Ideal S100000x128 .f32) (w : FVec Ideal S128x128 .f32) : FVec Ideal S100000x128 .f32 :=
  fun i => ∑ k : Fin 128, x (ix2 (i 0) k) * w (ix2 k (i 1))

theorem zeroOffsets : (![0, 0] : Fin 2 → Nat) = fun _ => 0 := funext fun a => by fin_cases a <;> rfl

/-- The dimension numbers of the body's product are the plain ones: rows by columns, no batch axis. -/
theorem plain : PlainDot.IsPlain (R := 10000) (K := 128) (C := 128) dot_S10000x128_S128x128_S10000x128_1_0_0_1_n_n :=
  ⟨rfl, rfl, rfl, rfl, rfl, rfl⟩

/-- What the body stores, at entry (p, q) of the block: the narrowing to bf16 is the identity on the extended reals
    and the accumulator is zero, so it is the sum over k of the loaded block's (p, k) times the loaded operand's (k, q). -/
theorem stored_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  rw [shapeCast_self]
  exact PlainDot.matmul_zero_apply plain none _ _ p q

/-- The printed index maps over the 10 grid points: block t of x and of the result is row block t; the right operand's
    one block is the whole array. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the rows-by-columns product of the arrays the call finds. -/
theorem flushed_eq (c : Dev nD) (t : Fin cfg0.N) :
    (dat0 V c).flushed 2 t = ((cfg0.win 2).blk t).view.read (Elt Ideal) (rowsByCols (V c main_arg0) (V c main_v4)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨e00, e01, e10, e11, e20, e21⟩ := blockIndices t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = rowsByCols (V c main_arg0) (V c main_v4) (((cfg0.win 2).blk t).view.emb (ix2 p q))
  refine (stored_apply _ _ p q).trans ?_
  unfold rowsByCols
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_2.index t (0 : Fin 2) * 10000 + 1 * p.val
      rw [e00, e20]
    | ⟨1, _⟩ =>
      show win0_0.index t (1 : Fin 2) * 128 + 1 * k.val = k.val
      rw [e01]; omega
  have hw : iblk0 V c 1 t (ix2 k q)
      = V c main_v4 (ix2 k ((((cfg0.win 2).blk t).view.emb (ix2 p q)) 1)) := by
    show V c main_v4 (((cfg0.win 1).blk t).view.emb (ix2 k q)) = _
    refine congrArg (V c main_v4) (funext fun a => Fin.ext ?_)
    match a with
    | ⟨0, _⟩ =>
      show win0_1.index t (0 : Fin 2) * 128 + 1 * k.val = k.val
      rw [e10]; omega
    | ⟨1, _⟩ =>
      show win0_1.index t (1 : Fin 2) * 128 + 1 * q.val = win0_2.index t (1 : Fin 2) * 128 + 1 * q.val
      rw [e11, e21]
  rw [hx, hw]

/-- An index of the result array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v5).slice (win0_2.rect t)).set ↔ _
  rw [View.set_slice_whole, Rect.mem_set_unit]
  exact Iff.rfl

/-- The ten row blocks tile the result array: row r lies in block r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  refine ⟨⟨(i 0).val / 10000, hN⟩, flush0_2 _, ?_⟩
  obtain ⟨-, -, -, -, e20, e21⟩ := blockIndices ⟨(i 0).val / 10000, hN⟩
  rw [mem_block]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e21]; omega

/-- THE ARRAY after the first call: rows of x times columns of the right operand, as the call found them. -/
theorem result (c : Dev nD) :
    (dat0 V c).arrAt 2 cfg0.N = rowsByCols (V c main_arg0) (V c main_v4) :=
  (dat0 V c).arrAt_eq_of_cover 2 (rowsByCols (V c main_arg0) (V c main_v4)) (fun t _ => flushed_eq V c t) covered

end Cert.KernelIdeal.Projection

end
-- ==== Proof.Weighting.lean ====
/-
  The edge weighting of the second pallas_call, as ONE function of the arrays the call finds.

  The call walks the 1600000 edge rows in 160 blocks of 10000; at block t its body loads the block of gathered
  features (10000 × 128) and the block of the norm column (10000 × 1), stretches the column along the 128 lanes and
  multiplies entry by entry. So entry (e, q) of the result is a(e, q) · n(e, 0), whatever the blocking, and since
  the blocks tile the array the array after the call IS that function.
-/
import proofs.«101713_j80247168959057_1_alg».proof.Proof.Gen.KernelIdeal.Frame
import Idealize.ShloMosaic.Lib.Pipeline.Value
import Idealize.ShloMosaic.Lib.ValueIdx

set_option maxRecDepth 16384

noncomputable section

namespace Cert.KernelIdeal.Weighting

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Each row of `a` scaled by that row's entry of the one-column array `n`. -/
def rowScaled (a : FVec Ideal S1600000x128 .f32) (n : FVec Ideal S1600000x1 .f32) : FVec Ideal S1600000x128 .f32 :=
  fun i => a i * n (ix2 (i 0) (0 : Fin 1))

theorem zeroOffsets : (![0, 0] : Fin 2 → Nat) = fun _ => 0 := funext fun a => by fin_cases a <;> rfl

/-- What the body stores, at entry (p, q) of the block: the loaded feature block's (p, q) times the loaded column's
    (p, 0) — the shape casts are to the same shape, and the lane broadcast reads the column's one lane. -/
theorem stored_apply (n0 : Vec Ideal S10000x1 .f32) (a0 : Vec Ideal S10000x128 .f32) (p : Fin 10000) (q : Fin 128) :
    k1_pay1 n0 a0 (ix2 p q) = a0 (ix2 p q) * n0 (ix2 p (0 : Fin 1)) := by
  unfold k1_pay1
  simp only [shapeCast_self]
  rw [mulf_apply]
  rw [broadcastTo_apply n0 _ (ix2 p q) (ix2 p (0 : Fin 1)) (fun a => by
    match a with
    | ⟨0, _⟩ => show p.val = if (10000 : ℕ) = 1 then 0 else p.val; rw [if_neg (by decide)]
    | ⟨1, _⟩ => show (0 : ℕ) = if (1 : ℕ) = 1 then 0 else q.val; rw [if_pos rfl])]

/-- The printed index maps over the 160 grid points: block t of each of the three windows is row block t. -/
theorem blockIndices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the row-scaled array of the arrays the call finds. -/
theorem flushed_eq (c : Dev nD) (t : Fin cfg1.N) :
    (dat1 V c).flushed 2 t = ((cfg1.win 2).blk t).view.read (Elt Ideal) (rowScaled (V c main_v36) (V c main_v37)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S10000x1) zeroOffsets]
  obtain ⟨e00, e01, e10, e11, e20, e21⟩ := blockIndices t
  funext j
  obtain ⟨p, q, rfl⟩ : ∃ (p : Fin 10000) (q : Fin 128), j = ix2 p q := ⟨j 0, j 1, eq_ix2 j⟩
  show k1_pay1 (iblk1 V c 1 t) (iblk1 V c 0 t) (ix2 p q)
    = rowScaled (V c main_v36) (V c main_v37) (((cfg1.win 2).blk t).view.emb (ix2 p q))
  refine (stored_apply _ _ p q).trans ?_
  unfold rowScaled
  have ha : iblk1 V c 0 t (ix2 p q) = V c main_v36 (((cfg1.win 2).blk t).view.emb (ix2 p q)) := by
    show V c main_v36 (((cfg1.win 0).blk t).view.emb (ix2 p q)) = _
    refine congrArg (V c main_v36) (funext fun a => Fin.ext ?_)
    match a with
    | ⟨0, _⟩ =>
      show win1_0.index t (0 : Fin 2) * 10000 + 1 * p.val = win1_2.index t (0 : Fin 2) * 10000 + 1 * p.val
      rw [e00, e20]
    | ⟨1, _⟩ =>
      show win1_0.index t (1 : Fin 2) * 128 + 1 * q.val = win1_2.index t (1 : Fin 2) * 128 + 1 * q.val
      rw [e01, e21]
  have hn : iblk1 V c 1 t (ix2 p (0 : Fin 1))
      = V c main_v37 (ix2 ((((cfg1.win 2).blk t).view.emb (ix2 p q)) 0) (0 : Fin 1)) := by
    show V c main_v37 (((cfg1.win 1).blk t).view.emb (ix2 p (0 : Fin 1))) = _
    refine congrArg (V c main_v37) (funext fun a => Fin.ext ?_)
    match a with
    | ⟨0, _⟩ =>
      show win1_1.index t (0 : Fin 2) * 10000 + 1 * p.val = win1_2.index t (0 : Fin 2) * 10000 + 1 * p.val
      rw [e10, e20]
    | ⟨1, _⟩ =>
      show win1_1.index t (1 : Fin 2) * 1 + 1 * 0 = 0
      rw [e11]
  rw [ha, hn]

/-- An index of the result array is in point t's block iff each coordinate is in the block's range on its axis. -/
theorem mem_block (t : Fin cfg1.N) (i : S1600000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v38).slice (win1_2.rect t)).set ↔ _
  rw [View.set_slice_whole, Rect.mem_set_unit]
  exact Iff.rfl

/-- The 160 row blocks tile the result array: row e lies in block e / 10000. -/
theorem covered (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : (i 0).val / 10000 < cfg1.N := by show _ < grid1.N; rw [N_1]; omega
  refine ⟨⟨(i 0).val / 10000, hN⟩, flush1_2 _, ?_⟩
  obtain ⟨-, -, -, -, e20, e21⟩ := blockIndices ⟨(i 0).val / 10000, hN⟩
  rw [mem_block]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    rw [e21]; omega

/-- THE ARRAY after the second call: the gathered features, each row scaled by its norm, as the call found them. -/
theorem result (c : Dev nD) :
    (dat1 V c).arrAt 2 cfg1.N = rowScaled (V c main_v36) (V c main_v37) :=
  (dat1 V c).arrAt_eq_of_cover 2 (rowScaled (V c main_v36) (V c main_v37)) (fun t _ => flushed_eq V c t) covered

end Cert.KernelIdeal.Weighting

end
-- ==== Proof.KernelValue.lean ====
/-
  What the kernel program's result buffer holds when @main returns, as one term of the launch contents.

  @main is seven segments. The first host stretch cuts the edge list into targets and sources and transposes W.
  The first pallas_call leaves h = x · Wᵗ (the rows of x times the columns of the transposed W) in its result array
  and touches nothing else. The next three host stretches compute each edge's norm and gather h at the sources. The
  second pallas_call leaves the gathered rows, each scaled by its edge's norm. The last stretch adds the scaled rows
  up at the targets. Read back through the contents at each segment boundary, the result buffer is
  aggregate (rowScaled (gathered h) norm-as-a-column).

  The host stretches are read for any float family (they are chains of the same operations whatever the floats are);
  only the two calls' arrays are read on the extended reals.
-/
import proofs.«101713_j80247168959057_1_alg».proof.Proof.Gen.KernelIdeal.Frame
import proofs.«101713_j80247168959057_1_alg».proof.Proof.Glue
import proofs.«101713_j80247168959057_1_alg».proof.Proof.Projection
import proofs.«101713_j80247168959057_1_alg».proof.Proof.Weighting
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

/-! ## The host stretches, for any float family -/

section AnyFamily

variable {F : FTy → Type} [FloatOps F]
variable (m : (ℓ : Loc nD τ sig) → Buf (Elt F) ℓ) (ρ : Dev nD → PrngReg)

theorem entry0_x (c : Dev nD) : V1 m ρ c main_arg0 = m ((c : Thread nD τ).loc main_arg0) := by
  show StableHlo.after hostOps0 (W0 m ρ c) (Proc.devRef .tc main_arg0) = _
  after_results <;> rfl

theorem entry0_w (c : Dev nD) :
    V1 m ρ c main_v4 = transpose S128x128 [1, 0] (m ((c : Thread nD τ).loc main_arg1)) transposes_S128x128_S128x128_1_0 := by
  show StableHlo.after hostOps0 (W0 m ρ c) (Proc.devRef .tc main_v4) = _
  after_results <;> rfl

theorem at1_target (c : Dev nD) :
    W1 m ρ c (Proc.devRef .tc main_v1) = Glue.target (m ((c : Thread nD τ).loc main_arg2)) := by
  show StableHlo.after hostOps0 (W0 m ρ c) (Proc.devRef .tc main_v1) = _
  after_results <;> rfl

theorem at1_source (c : Dev nD) :
    W1 m ρ c (Proc.devRef .tc main_v3) = Glue.source (m ((c : Thread nD τ).loc main_arg2)) := by
  show StableHlo.after hostOps0 (W0 m ρ c) (Proc.devRef .tc main_v3) = _
  after_results <;> rfl

/-- The first call leaves the edge ends as it found them. -/
theorem at2_target (c : Dev nD) :
    W2 m ρ c (Proc.devRef .tc main_v1) = Glue.target (m ((c : Thread nD τ).loc main_arg2)) :=
  (W2_of_ne m ρ c main_v1 (by decide)).trans (at1_target m ρ c)

theorem at2_source (c : Dev nD) :
    W2 m ρ c (Proc.devRef .tc main_v3) = Glue.source (m ((c : Thread nD τ).loc main_arg2)) :=
  (W2_of_ne m ρ c main_v3 (by decide)).trans (at1_source m ρ c)

/-- The 44 host operations between the calls, at the second call's feature operand: the first call's result
    gathered at the sources. -/
theorem between_features (c : Dev nD) :
    V5 m ρ c main_v36 = Glue.gathered (W2 m ρ c (Proc.devRef .tc main_v5)) (W2 m ρ c (Proc.devRef .tc main_v3)) := by
  show StableHlo.after hostOps1_2 (StableHlo.after hostOps1_1 (StableHlo.after hostOps1 (W2 m ρ c))) (Proc.devRef .tc main_v36) = _
  after_results_simp
  rfl

/-- The same stretch at the second call's column operand: the norms, reshaped from E to E × 1. -/
theorem between_norm (c : Dev nD) :
    V5 m ρ c main_v37 = shapeCast S1600000x1
      (Glue.norm (F := F) (W2 m ρ c (Proc.devRef .tc main_v1)) (W2 m ρ c (Proc.devRef .tc main_v3))) shapeCasts_S1600000_S1600000x1 := by
  show StableHlo.after hostOps1_2 (StableHlo.after hostOps1_1 (StableHlo.after hostOps1 (W2 m ρ c))) (Proc.devRef .tc main_v37) = _
  after_results_simp
  rfl

/-- The same stretch leaves the targets alone. -/
theorem between_target (c : Dev nD) : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results_simp

/-- The last stretch: the second call's result rows added up at the targets. -/
theorem last_stretch (c : Dev nD) :
    W7 m ρ c (Proc.devRef .tc main_v41)
      = Glue.aggregate (W6 m ρ c (Proc.devRef .tc main_v38)) (W6 m ρ c (Proc.devRef .tc main_v1)) := by
  show StableHlo.after hostOps2 (W6 m ρ c) (Proc.devRef .tc main_v41) = _
  after_results <;> rfl

theorem at6_target (c : Dev nD) :
    W6 m ρ c (Proc.devRef .tc main_v1) = Glue.target (m ((c : Thread nD τ).loc main_arg2)) :=
  (W6_of_ne m ρ c main_v1 (by decide)).trans ((between_target m ρ c).trans (at2_target m ρ c))

end AnyFamily

/-! ## The two calls, on the extended reals -/

variable (m : (ℓ : Loc nD τ sig) → Buf (Elt Ideal) ℓ) (ρ : Dev nD → PrngReg)

/-- The three argument arrays at launch. -/
abbrev xArr (c : Dev nD) : FVec Ideal S100000x128 .f32 := m ((c : Thread nD τ).loc main_arg0)
abbrev wArr (c : Dev nD) : FVec Ideal S128x128 .f32 := m ((c : Thread nD τ).loc main_arg1)
abbrev edges (c : Dev nD) : IVec S2x1600000 32 := m ((c : Thread nD τ).loc main_arg2)

/-- W transposed: the right operand of the projection. -/
abbrev wT (c : Dev nD) : FVec Ideal S128x128 .f32 := transpose S128x128 [1, 0] (wArr m c) transposes_S128x128_S128x128_1_0

/-- The first call's result array: the projection. -/
theorem at2_h (c : Dev nD) : W2 m ρ c (Proc.devRef .tc main_v5) = Projection.rowsByCols (xArr m c) (wT m c) :=
  (W2_arr m ρ c 2).trans ((Projection.result (V1 m ρ) c).trans (by rw [entry0_x, entry0_w]))

/-- The second call's result array: the gathered projection rows, each scaled by its edge's norm. -/
theorem at6_weighted (c : Dev nD) :
    W6 m ρ c (Proc.devRef .tc main_v38)
      = Weighting.rowScaled (Glue.gathered (Projection.rowsByCols (xArr m c) (wT m c)) (Glue.source (edges m c)))
          (shapeCast S1600000x1 (Glue.norm (Glue.target (edges m c)) (Glue.source (edges m c))) shapeCasts_S1600000_S1600000x1) :=
  (W6_arr m ρ c 2).trans ((Weighting.result (V5 m ρ) c).trans (by
    rw [between_features, between_norm, at2_h, at2_source, at2_target]))

/-- THE RESULT BUFFER when @main returns. -/
theorem result (c : Dev nD) :
    W7 m ρ c (Proc.devRef .tc main_v41)
      = Glue.aggregate (Weighting.rowScaled (Glue.gathered (Projection.rowsByCols (xArr m c) (wT m c)) (Glue.source (edges m c)))
          (shapeCast S1600000x1 (Glue.norm (Glue.target (edges m c)) (Glue.source (edges m c))) shapeCasts_S1600000_S1600000x1))
        (Glue.target (edges m c)) := by
  rw [last_stretch, at6_weighted, at6_target]

end Cert.KernelIdeal.KernelValue

end
-- ==== Proof.RefValue.lean ====
/-
  The reference program's result in the same named pieces as the kernel's, and the two places where the programs
  differ.

  The reference computes h by one matrix product on the host; entry (r, q) of it is the sum over k of
  x(r, k) · Wᵗ(k, q), the rows-by-columns product the first pallas_call leaves. It weights a gathered row by
  stretching the norm vector first to an E × 1 column and then along the 128 lanes, and multiplying entry by entry;
  entry (e, q) of that is a(e, q) · norm(e), which is what the second pallas_call leaves when its column operand is
  the norm vector reshaped to E × 1. Everything else in the two programs is the same chain of host operations.
-/
import proofs.«101713_j80247168959057_1_alg».proof.Proof.RefRun
import proofs.«101713_j80247168959057_1_alg».proof.Proof.Glue
import proofs.«101713_j80247168959057_1_alg».proof.Proof.Projection
import proofs.«101713_j80247168959057_1_alg».proof.Proof.Weighting
import proofs.«101713_j80247168959057_1_alg».proof.Proof.LibPlainDot
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-- The dimension numbers of the reference's product are the plain ones: rows by columns, no batch axis. -/
theorem plain : PlainDot.IsPlain (R := 100000) (K := 128) (C := 128) dot_S100000x128_S128x128_S100000x128_1_0_0_1_n_n :=
  ⟨rfl, rfl, rfl, rfl, rfl, rfl⟩

/-- The host's matrix product is the rows-by-columns product. -/
theorem product_eq (x : FVec Ideal S100000x128 .f32) (w : FVec Ideal S128x128 .f32) :
    Host.dotGeneral dot_S100000x128_S128x128_S100000x128_1_0_0_1_n_n none x w
      = Cert.KernelIdeal.Projection.rowsByCols x w := by
  funext i
  obtain ⟨p, q, rfl⟩ : ∃ (p : Fin 100000) (q : Fin 128), i = ix2 p q := ⟨i 0, i 1, eq_ix2 i⟩
  exact PlainDot.dotGeneral_apply plain none .single x w p q

/-- Stretching a vector to a column and then along the lanes, times `a`, is `a` with each row scaled by the vector's
    entry: the column read at (e, 0) and the reshaped vector read at (e, 0) are both the vector's entry e. -/
theorem weighting_eq (a : FVec Ideal S1600000x128 .f32) (n : FVec Ideal S1600000 .f32) :
    mulf a (broadcastInDim S1600000x128 ![0, 1] bcast_S1600000x1_S1600000x128_0_1
        (broadcastInDim S1600000x1 ![0] bcast_S1600000_S1600000x1_0 n))
      = Cert.KernelIdeal.Weighting.rowScaled a
          (shapeCast Cert.KernelIdeal.S1600000x1 n Cert.KernelIdeal.Gen.shapeCasts_S1600000_S1600000x1) := by
  funext i
  obtain ⟨e, q, rfl⟩ : ∃ (e : Fin 1600000) (q : Fin 128), i = ix2 e q := ⟨i 0, i 1, eq_ix2 i⟩
  show a (ix2 e q) * _ = a (ix2 e q) * _
  refine congrArg (a (ix2 e q) * ·) ?_
  have hl : broadcastInDim S1600000x128 ![0, 1] bcast_S1600000x1_S1600000x128_0_1
      (broadcastInDim S1600000x1 ![0] bcast_S1600000_S1600000x1_0 n) (ix2 e q) = n (ix1 e) := by
    rw [broadcastInDim_apply _ _ _ (ix2 e q) (ix2 e (0 : Fin 1)) (fun b => by
      match b with
      | ⟨0, _⟩ => show e.val = if (1600000 : ℕ) = 1 then 0 else e.val; rw [if_neg (by decide)]
      | ⟨1, _⟩ => show (0 : ℕ) = if (1 : ℕ) = 1 then 0 else q.val; rw [if_pos rfl])]
    rw [broadcastInDim_apply _ _ _ (ix2 e (0 : Fin 1)) (ix1 e) (fun b => by
      match b with
      | ⟨0, _⟩ => show e.val = if (1600000 : ℕ) = 1 then 0 else e.val; rw [if_neg (by decide)])]
  have hr : shapeCast Cert.KernelIdeal.S1600000x1 n Cert.KernelIdeal.Gen.shapeCasts_S1600000_S1600000x1 (ix2 e (0 : Fin 1)) = n (ix1 e) :=
    shapeCast_apply n _ (ix2 e (0 : Fin 1)) (ix1 e) (by
      rw [Shape.rowMajor_val_one, Shape.rowMajor_val_two]
      show e.val = e.val * 1 + 0
      omega)
  exact hl.trans hr.symm

/-- THE REFERENCE'S RESULT in the named pieces, for any float family: the host product's rows gathered at the sources,
    weighted by the norms stretched along the lanes, added up at the targets. -/
theorem result {F : FTy → Type} [FloatOps F] (m : (ℓ : Loc nD τ sig) → Buf (Elt F) ℓ) (c : Dev nD) :
    ValueP.res_main_v42 m c
      = Cert.KernelIdeal.Glue.aggregate
          (mulf (Cert.KernelIdeal.Glue.gathered
              (Host.dotGeneral dot_S100000x128_S128x128_S100000x128_1_0_0_1_n_n none (m ((c.tc : Thread nD τ).loc main_arg0))
                (transpose S128x128 [1, 0] (m ((c.tc : Thread nD τ).loc main_arg1)) transposes_S128x128_S128x128_1_0))
              (Cert.KernelIdeal.Glue.source (m ((c.tc : Thread nD τ).loc main_arg2))))
            (broadcastInDim S1600000x128 ![0, 1] bcast_S1600000x1_S1600000x128_0_1
              (broadcastInDim S1600000x1 ![0] bcast_S1600000_S1600000x1_0
                (Cert.KernelIdeal.Glue.norm (F := F) (Cert.KernelIdeal.Glue.target (m ((c.tc : Thread nD τ).loc main_arg2)))
                  (Cert.KernelIdeal.Glue.source (m ((c.tc : Thread nD τ).loc main_arg2)))))))
          (Cert.KernelIdeal.Glue.target (m ((c.tc : Thread nD τ).loc main_arg2))) := by
  unfold ValueP.res_main_v42
  rfl

end Cert.ReferenceIdeal.RefValue

end
-- ==== Proof.lean ====
/-
  A graph-convolution layer on N = 100000 nodes with 128 features and E = 1600000 edges:

      out[t] = Σ over edges e with target t of  norm(e) · h[source(e)],      h = x · Wᵗ,
      norm(e) = d(target e) · d(source e),   d(v) = deg(v)^(-1/2) where deg(v) > 0 and 0 elsewhere,
      deg(v) = the number of edges with source v.

  The kernel program computes h in a first pallas_call (row blocks of x times the transposed W, narrowed to bf16
  and accumulated in f32) and the products norm(e) · h[source(e)] in a second one (row blocks of the gathered
  features times the norm column stretched along the lanes); the degrees, the norms, the gather and the final
  scatter-add are host operations. The reference computes h by one host matrix product and the weighting by host
  broadcasts and a product, between the same host operations.

  On the extended reals the two agree with no condition on the inputs. The narrowing to bf16 is the identity and
  the accumulator starts at zero, so entry (r, q) of the first call's array is Σ_k x(r, k) · Wᵗ(k, q) — the host
  product's entry (Projection, RefValue.product_eq). Entry (e, q) of the second call's array is
  a(e, q) · n(e, 0) with n the norms reshaped to a column — the host's a(e, q) · norm(e) after its two broadcasts
  (Weighting, RefValue.weighting_eq). The remaining host operations are the same chain in both programs and are
  compared as they stand (Glue, KernelValue, RefValue.result). No sum is reordered and no factor moved, so
  finiteness of the inputs is never used.

  The three programs run and leave their arguments alone: the kernel programs by their frames, the reference by its
  run. The idealization rewrote nothing, so there is nothing to preserve.
-/
import proofs.«101713_j80247168959057_1_alg».proof.Defs
import proofs.«101713_j80247168959057_1_alg».proof.Proof.Gen.Kernel
import proofs.«101713_j80247168959057_1_alg».proof.Proof.Gen.Kernel.Frame
import proofs.«101713_j80247168959057_1_alg».proof.Proof.Gen.KernelIdeal
import proofs.«101713_j80247168959057_1_alg».proof.Proof.Gen.KernelIdeal.Frame
import proofs.«101713_j80247168959057_1_alg».proof.Proof.Gen.ReferenceIdeal
import proofs.«101713_j80247168959057_1_alg».proof.Proof.Gen.Pre_finite_inputs
import proofs.«101713_j80247168959057_1_alg».proof.Proof.KernelRun
import proofs.«101713_j80247168959057_1_alg».proof.Proof.KernelValue
import proofs.«101713_j80247168959057_1_alg».proof.Proof.RefRun
import proofs.«101713_j80247168959057_1_alg».proof.Proof.RefValue
import Idealize.ShloMosaic.Adequacy
import Idealize.ShloMosaic.Init

set_option maxRecDepth 16384

noncomputable section

namespace Cert.Proof

open Idealize.ShloMosaic Idealize.SL.Sem

/-- The kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten. -/
theorem preserves : Cert.preserves_Kernel_KernelIdeal := trivial

/-- From memories that agree on x, W and the edge list, both programs end with the same result array: the
    kernel's is aggregate (rowScaled (gathered (rows of x by columns of Wᵗ)) norm-column), the reference's is
    aggregate (gathered (x · Wᵗ) ⊙ norm stretched), and the two inner differences are `product_eq` and
    `weighting_eq`. -/
theorem algebraic : Cert.algebraic_KernelIdeal_ReferenceIdeal := by
  intro m ρ m' ρ' _ hagree
  refine ⟨fun c => Cert.KernelIdeal.Gen.W7 m ρ c (Proc.devRef .tc Cert.KernelIdeal.main_v41),
    Cert.KernelIdeal.GenP.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W7 m ρ c (Proc.devRef .tc Cert.KernelIdeal.main_v41)
  rw [Cert.ReferenceIdeal.RefValue.result, Cert.KernelIdeal.KernelValue.result, (hagree c).1, (hagree c).2.1, (hagree c).2.2,
    Cert.ReferenceIdeal.RefValue.product_eq, Cert.ReferenceIdeal.RefValue.weighting_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
